-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S64x256x4096 : Shape := ⟨3, ![64, 256, 4096]⟩
abbrev S64x256x512 : Shape := ⟨3, ![64, 256, 512]⟩
abbrev S64x512 : Shape := ⟨2, ![64, 512]⟩
abbrev S64x512x64 : Shape := ⟨3, ![64, 512, 64]⟩
abbrev S64x64 : Shape := ⟨2, ![64, 64]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S64x256x4096 : S_.BroadcastsInDim S64x256x4096 (![] : Fin 0 → Fin S64x256x4096.rank)
  reducesTo_S64x256x4096_S_d0_1_2 : S64x256x4096.ReducesTo [0, 1, 2] S_
  bcast_S_S64x256x512 : S_.BroadcastsInDim S64x256x512 (![] : Fin 0 → Fin S64x256x512.rank)
  reducesTo_S64x256x512_S_d0_1_2 : S64x256x512.ReducesTo [0, 1, 2] S_
  bcast_S_S64x512 : S_.BroadcastsInDim S64x512 (![] : Fin 0 → Fin S64x512.rank)
  reducesTo_S64x512_S_d0_1 : S64x512.ReducesTo [0, 1] S_
  bcast_S_S64x512x64 : S_.BroadcastsInDim S64x512x64 (![] : Fin 0 → Fin S64x512x64.rank)
  reducesTo_S64x512x64_S_d0_1_2 : S64x512x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x512x64 .f32) (main_arg5 : FVec F S64x64 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64x512x64 .f32 := Host.absf main_arg4
  let main_cst_6 : FVec F S_ .f32 := constant S_ .f32 0x7F800000#32
  let main_v20 : FVec F S64x512x64 .f32 := broadcastInDim S64x512x64 ![] bcast_S_S64x512x64 main_cst_6
  let main_v21 : IVec S64x512x64 1 := cmpf .olt main_v19 main_v20
  let main_c_7 : IVec S_ 1 := constantI S_ 1 1#1
  let main_v22 : IVec S_ 1 := (fun x v => Host.reduce IntOp.andi x v reducesTo_S64x512x64_S_d0_1_2 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S64x256x256 .f32) (main_arg1 : FVec F S64x256x4096 .f32) (main_arg2 : FVec F S64x256x512 .f32) (main_arg3 : FVec F S64x512 .f32) (main_arg4 : FVec F S64x512x64 .f32) (main_arg5 : FVec F S64x64 .f32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S64x256x4096 .f32 := Host.absf main_arg1
  let main_cst_0 : FVec F S_ .f32 := constant S_ .f32 0x7F800000#32
  let main_v5 : FVec F S64x256x4096 .f32 := broadcastInDim S64x256x4096 ![] bcast_S_S64x256x4096 main_cst_0
  let main_v6 : IVec S64x256x4096 1 := cmpf .olt main_v4 main_v5
  let main_c_1 : IVec S_ 1 := constantI S_ 1 1#1
  let main_v7 : IVec S_ 1 := (fun x v => Host.reduce IntOp.andi x v reducesTo_S64x256x4096_S_d0_1_2 h_S_) main_v6 main_c_1
  let main_v8 : IVec S_ 1 := andi main_v3 main_v7
  let main_v9 : FVec F S64x256x512 .f32 := Host.absf main_arg2
  let main_cst_2 : FVec F S_ .f32 := constant S_ .f32 0x7F800000#32
  let main_v10 : FVec F S64x256x512 .f32 := broadcastInDim S64x256x512 ![] bcast_S_S64x256x512 main_cst_2
  let main_v11 : IVec S64x256x512 1 := cmpf .olt main_v9 main_v10
  let main_c_3 : IVec S_ 1 := constantI S_ 1 1#1
  let main_v12 : IVec S_ 1 := (fun x v => Host.reduce IntOp.andi x v reducesTo_S64x256x512_S_d0_1_2 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_v13 main_v16
-- ==== Kernel.lean ====
abbrev S64x256x256 : Shape := ⟨3, ![64, 256, 256]⟩
abbrev S64x256x4096 : Shape := ⟨3, ![64, 256, 4096]⟩
abbrev S64x256x512 : Shape := ⟨3, ![64, 256, 512]⟩
abbrev S64x512 : Shape := ⟨2, ![64, 512]⟩
abbrev S64x512x64 : Shape := ⟨3, ![64, 512, 64]⟩
abbrev S64x64 : Shape := ⟨2, ![64, 64]⟩
abbrev S64x1x512 : Shape := ⟨3, ![64, 1, 512]⟩
abbrev S64x1x64 : Shape := ⟨3, ![64, 1, 64]⟩
abbrev S64x4096x64 : Shape := ⟨3, ![64, 4096, 64]⟩
abbrev S1x256x256 : Shape := ⟨3, ![1, 256, 256]⟩
abbrev S1x256x1024 : Shape := ⟨3, ![1, 256, 1024]⟩
abbrev S1x256x512 : Shape := ⟨3, ![1, 256, 512]⟩
abbrev S1x1x512 : Shape := ⟨3, ![1, 1, 512]⟩
abbrev S1x512x64 : Shape := ⟨3, ![1, 512, 64]⟩
abbrev S1x1x64 : Shape := ⟨3, ![1, 1, 64]⟩
abbrev S1x1024x64 : Shape := ⟨3, ![1, 1024, 64]⟩
abbrev S256x256 : Shape := ⟨2, ![256, 256]⟩
abbrev S256x1024 : Shape := ⟨2, ![256, 1024]⟩
abbrev S256x512 : Shape := ⟨2, ![256, 512]⟩
abbrev S1024x512 : Shape := ⟨2, ![1024, 512]⟩
abbrev S1x512 : Shape := ⟨2, ![1, 512]⟩
abbrev S512x64 : Shape := ⟨2, ![512, 64]⟩
abbrev S1024x64 : Shape := ⟨2, ![1024, 64]⟩
abbrev S1x64 : Shape := ⟨2, ![1, 64]⟩

abbrev nBuf : Space → Nat
  | .hbm => 9
  | .vmem => 14
  | .smem => 0
  | _ => 0

abbrev bufTy : (tb : Table) → Fin (tcTables nBuf tb) → BufTy
  | .hbm, ⟨0, _⟩ => ⟨S64x256x256, .f32⟩
  | .hbm, ⟨1, _⟩ => ⟨S64x256x4096, .f32⟩
  | .hbm, ⟨2, _⟩ => ⟨S64x256x512, .f32⟩
  | .hbm, ⟨3, _⟩ => ⟨S64x512, .f32⟩
  | .hbm, ⟨4, _⟩ => ⟨S64x512x64, .f32⟩
  | .hbm, ⟨5, _⟩ => ⟨S64x64, .f32⟩
  | .hbm, ⟨6, _⟩ => ⟨S64x1x512, .f32⟩
  | .hbm, ⟨7, _⟩ => ⟨S64x1x64, .f32⟩
  | .hbm, ⟨8, _⟩ => ⟨S64x4096x64, .f32⟩
  | .local _ .vmem, ⟨0, _⟩ => ⟨S1x256x256, .f32⟩
  | .local _ .vmem, ⟨1, _⟩ => ⟨S1x256x256, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .f32⟩
  | .local _ .vmem, ⟨5, _⟩ => ⟨S1x256x512, .f32⟩
  | .local _ .vmem, ⟨6, _⟩ => ⟨S1x1x512, .f32⟩
  | .local _ .vmem, ⟨7, _⟩ => ⟨S1x1x512, .f32⟩
  | .local _ .vmem, ⟨8, _⟩ => ⟨S1x512x64, .f32⟩
  | .local _ .vmem, ⟨9, _⟩ => ⟨S1x512x64, .f32⟩
  | .local _ .vmem, ⟨10, _⟩ => ⟨S1x1x64, .f32⟩
  | .local _ .vmem, ⟨11, _⟩ => ⟨S1x1x64, .f32⟩
  | .local _ .vmem, ⟨12, _⟩ => ⟨S1x1024x64, .f32⟩
  | .local _ .vmem, ⟨13, _⟩ => ⟨S1x1024x64, .f32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S64x512_S64x1x512 : S64x512.ShapeCasts S64x1x512
  shapeCasts_S64x64_S64x1x64 : S64x64.ShapeCasts S64x1x64
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S256x256_S256x1024_S256x1024_1_0_0_1_n_n_wf : DotDims.WF S256x256 S256x1024 S256x1024 [1] [0] [0] [1] [] []
  dot_S256x1024_S256x512_S1024x512_0_0_1_1_n_n_wf : DotDims.WF S256x1024 S256x512 S1024x512 [0] [0] [1] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S64x256x256.size a
  hwx0_0 : ∀ i : grid0.Coords, EltTy.bits .f32 = 32 ∨ (Rect.block (s := S64x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S64x256x4096.size a
  hwx0_1 : ∀ i : grid0.Coords, EltTy.bits .f32 = 32 ∨ (Rect.block (s := S64x256x4096) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S64x256x512.size a
  hwx0_2 : ∀ i : grid0.Coords, EltTy.bits .f32 = 32 ∨ (Rect.block (s := S64x256x512) S1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S64x1x512.size a
  hwx0_3 : ∀ i : grid0.Coords, EltTy.bits .f32 = 32 ∨ (Rect.block (s := S64x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x512x64.size a
  hwx0_4 : ∀ i : grid0.Coords, EltTy.bits .f32 = 32 ∨ (Rect.block (s := S64x512x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S64x1x64.size a
  hwx0_5 : ∀ i : grid0.Coords, EltTy.bits .f32 = 32 ∨ (Rect.block (s := S64x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S64x4096x64.size a
  hwx0_6 : ∀ i : grid0.Coords, EltTy.bits .f32 = 32 ∨ (Rect.block (s := S64x4096x64) S1x1024x64.size (cc0_transform_6 i) (hinb0_6 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S256x512_S1024x512_0_0_1_1_n_n : DotDims S256x1024 S256x512 S1024x512 where
  lhsContracting := [0]
  rhsContracting := [0]
  lhsNonContracting := [1]
  rhsNonContracting := [1]
  lhsBatch := []
  rhsBatch := []
  wf := dot_S256x1024_S256x512_S1024x512_0_0_1_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x256x256 : Shape := ⟨3, ![64, 256, 256]⟩
abbrev S64x256x4096 : Shape := ⟨3, ![64, 256, 4096]⟩
abbrev S64x256x512 : Shape := ⟨3, ![64, 256, 512]⟩
abbrev S64x512 : Shape := ⟨2, ![64, 512]⟩
abbrev S64x512x64 : Shape := ⟨3, ![64, 512, 64]⟩
abbrev S64x64 : Shape := ⟨2, ![64, 64]⟩
abbrev S64x4096x256 : Shape := ⟨3, ![64, 4096, 256]⟩
abbrev S64x4096x512 : Shape := ⟨3, ![64, 4096, 512]⟩
abbrev S64x1x512 : Shape := ⟨3, ![64, 1, 512]⟩
abbrev S_ : Shape := ⟨0, ![]⟩
abbrev S64x4096x64 : Shape := ⟨3, ![64, 4096, 64]⟩
abbrev S64x1x64 : Shape := ⟨3, ![64, 1, 64]⟩

abbrev nBuf : Space → Nat
  | .hbm => 19
  | .vmem => 0
  | .smem => 0
  | _ => 0

abbrev bufTy : (tb : Table) → Fin (tcTables nBuf tb) → BufTy
  | .hbm, ⟨0, _⟩ => ⟨S64x256x256, .f32⟩
  | .hbm, ⟨1, _⟩ => ⟨S64x256x4096, .f32⟩
  | .hbm, ⟨2, _⟩ => ⟨S64x256x512, .f32⟩
  | .hbm, ⟨3, _⟩ => ⟨S64x512, .f32⟩
  | .hbm, ⟨4, _⟩ => ⟨S64x512x64, .f32⟩
  | .hbm, ⟨5, _⟩ => ⟨S64x64, .f32⟩
  | .hbm, ⟨6, _⟩ => ⟨S64x256x4096, .f32⟩
  | .hbm, ⟨7, _⟩ => ⟨S64x4096x256, .f32⟩
  | .hbm, ⟨8, _⟩ => ⟨S64x4096x512, .f32⟩
  | .hbm, ⟨9, _⟩ => ⟨S64x1x512, .f32⟩
  | .hbm, ⟨10, _⟩ => ⟨S64x4096x512, .f32⟩
  | .hbm, ⟨11, _⟩ => ⟨S64x4096x512, .f32⟩
  | .hbm, ⟨12, _⟩ => ⟨S_, .f32⟩
  | .hbm, ⟨13, _⟩ => ⟨S64x4096x512, .f32⟩
  | .hbm, ⟨14, _⟩ => ⟨S64x4096x512, .f32⟩
  | .hbm, ⟨15, _⟩ => ⟨S64x4096x64, .f32⟩
  | .hbm, ⟨16, _⟩ => ⟨S64x1x64, .f32⟩
  | .hbm, ⟨17, _⟩ => ⟨S64x4096x64, .f32⟩
  | .hbm, ⟨18, _⟩ => ⟨S64x4096x64, .f32⟩
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  transposes_S64x256x4096_S64x4096x256_0_2_1 : S64x256x4096.Transposes [0, 2, 1] S64x4096x256
  bcast_S64x512_S64x1x512_0_2 : S64x512.BroadcastsInDim S64x1x512 (![0, 2] : Fin 2 → Fin S64x1x512.rank)
  bcast_S64x1x512_S64x4096x512_0_1_2 : S64x1x512.BroadcastsInDim S64x4096x512 (![0, 1, 2] : Fin 3 → Fin S64x4096x512.rank)
  bcast_S_S64x4096x512 : S_.BroadcastsInDim S64x4096x512 (![] : Fin 0 → Fin S64x4096x512.rank)
  bcast_S64x64_S64x1x64_0_2 : S64x64.BroadcastsInDim S64x1x64 (![0, 2] : Fin 2 → Fin S64x1x64.rank)
  bcast_S64x1x64_S64x4096x64_0_1_2 : S64x1x64.BroadcastsInDim S64x4096x64 (![0, 1, 2] : Fin 3 → Fin S64x4096x64.rank)
  dot_S64x256x256_S64x256x4096_S64x256x4096_2_1_1_2_0_0_wf : DotDims.WF S64x256x256 S64x256x4096 S64x256x4096 [2] [1] [1] [2] [0] [0]
  dot_S64x4096x256_S64x256x512_S64x4096x512_2_1_1_2_0_0_wf : DotDims.WF S64x4096x256 S64x256x512 S64x4096x512 [2] [1] [1] [2] [0] [0]
  dot_S64x4096x512_S64x512x64_S64x4096x64_2_1_1_2_0_0_wf : DotDims.WF S64x4096x512 S64x512x64 S64x4096x64 [2] [1] [1] [2] [0] [0]

variable [Facts₀]

def dot_S64x256x256_S64x256x4096_S64x256x4096_2_1_1_2_0_0 : DotDims S64x256x256 S64x256x4096 S64x256x4096 where
  lhsContracting := [2]
  rhsContracting := [1]
  lhsNonContracting := [1]
  rhsNonContracting := [2]
  lhsBatch := [0]
  rhsBatch := [0]
  wf := dot_S64x256x256_S64x256x4096_S64x256x4096_2_1_1_2_0_0_wf
def dot_S64x4096x256_S64x256x512_S64x4096x512_2_1_1_2_0_0 : DotDims S64x4096x256 S64x256x512 S64x4096x512 where
  lhsContracting := [2]
  rhsContracting := [1]
  lhsNonContracting := [1]
  rhsNonContracting := [2]
  lhsBatch := [0]
  rhsBatch := [0]
  wf := dot_S64x4096x256_S64x256x512_S64x4096x512_2_1_1_2_0_0_wf
def dot_S64x4096x512_S64x512x64_S64x4096x64_2_1_1_2_0_0 : DotDims S64x4096x512 S64x512x64 S64x4096x64 where
  lhsContracting := [2]
  rhsContracting := [1]
  lhsNonContracting := [1]
  rhsNonContracting := [2]
  lhsBatch := [0]
  rhsBatch := [0]
  wf := dot_S64x4096x512_S64x512x64_S64x4096x64_2_1_1_2_0_0_wf

class Facts : Prop extends Facts₀ where

variable [Facts]
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.LibMatmulColumns.lean ====
/-
  A matrix product that contracts the FIRST axis of both rank-2 operands, read at one entry over the extended reals.

  A K×M left operand against a K×N right operand, both used as they lie (columns against columns), into an M×N
  result: the transpose of the left operand times the right one. Started from the zero accumulator, entry (p, q)
  of the product is the plain sum over k of x[k, p] · y[k, q]: addition of extended reals is commutative and
  associative and the accumulator's zero is the neutral element, so no rounding and no chunk order is left.
  The contraction index (a one-axis index set) is re-indexed by its coordinate in `Fin K`.
-/
import Idealize.ShloMosaic.Lib.ValueIdx
import Idealize.ShloMosaic.PureOps.Ideal.Laws

noncomputable section

open scoped BigOperators

namespace Idealize.ShloMosaic.MatmulColumns

open Idealize.ShloMosaic Idealize.ShloMosaic.ValueIdx

/-- The dimension numbers `<[0], [0], [1], [1], [0, 1, 1, 1], [], []>`: `K×M` by `K×N`, both operands contracted
    on their first axis. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- The left operand is read at the contraction position on its first axis … -/
theorem lhs_row (i : (⟨2, ![M, N]⟩ : Shape).Idx) (q : (dims K M N).contr.Idx) :
    ((dims K M N).lhsIdx i q 0).val = (q ⟨0, by rw [DotDims.rank_contr]; exact Nat.one_pos⟩).val :=
  (dims K M N).lhsIdx_val_of_single rfl i q

/-- … and at column `i 0` of the result index. -/
theorem lhs_col (i : (⟨2, ![M, N]⟩ : Shape).Idx) (q : (dims K M N).contr.Idx) :
    ((dims K M N).lhsIdx i q 1).val = (i 0).val := by
  unfold DotDims.lhsIdx
  rw [dif_neg (show ¬(1 : Fin 2) ∈ (dims K M N).lhsBatch by simp [dims]),
    dif_pos (show (1 : Fin 2) ∈ (dims K M N).lhsNonContracting by simp [dims])]
  rfl

/-- The right operand is read at the same contraction position on its first axis … -/
theorem rhs_row (i : (⟨2, ![M, N]⟩ : Shape).Idx) (q : (dims K M N).contr.Idx) :
    ((dims K M N).rhsIdx i q 0).val = (q ⟨0, by rw [DotDims.rank_contr]; exact Nat.one_pos⟩).val :=
  (dims K M N).rhsIdx_val_of_single rfl i q

/-- … and at column `i 1` of the result index. -/
theorem rhs_col (i : (⟨2, ![M, N]⟩ : Shape).Idx) (q : (dims K M N).contr.Idx) :
    ((dims K M N).rhsIdx i q 1).val = (i 1).val := by
  unfold DotDims.rhsIdx
  rw [dif_neg (show ¬(1 : Fin 2) ∈ (dims K M N).rhsBatch by simp [dims]),
    dif_pos (show (1 : Fin 2) ∈ (dims K M N).rhsNonContracting by simp [dims])]
  rfl

/-- Entry (p, q) of xᵀ · y from the zero accumulator: the sum over k of x[k, p] · y[k, q]. -/
theorem matmul_zero_apply {φ₁ φ₂ : FTy} (prec : Option ContractPrecision)
    (x : FVec Ideal ⟨2, ![K, M]⟩ φ₁) (y : FVec Ideal ⟨2, ![K, N]⟩ φ₂) (p : Fin M) (q : Fin N) :
    FloatOps.matmul (dims K M N) prec x y (constant ⟨2, ![M, N]⟩ .f32 0x00000000#32) (ix2 p q)
      = ∑ k : Fin K, x (ix2 k p) * y (ix2 k q) := by
  rw [Ideal.matmul_constant_zero_apply, ← Equiv.sum_comp (contrEquiv1 (dims K M N) K rfl rfl).symm]
  refine Finset.sum_congr rfl fun k _ => ?_
  have hk := contrEquiv1_symm_val (dims K M N) K rfl rfl k
  have el : (dims K M N).lhsIdx (ix2 p q) ((contrEquiv1 (dims K M N) K rfl rfl).symm k)
      = ix2 k p := funext fun a => Fin.ext (by
    match a with
    | ⟨0, _⟩ => exact (lhs_row _ _).trans hk
    | ⟨1, _⟩ => exact lhs_col _ _)
  have er : (dims K M N).rhsIdx (ix2 p q) ((contrEquiv1 (dims K M N) K rfl rfl).symm k)
      = ix2 k q := funext fun a => Fin.ext (by
    match a with
    | ⟨0, _⟩ => exact (rhs_row _ _).trans hk
    | ⟨1, _⟩ => exact rhs_col _ _)
  rw [el, er]

end Idealize.ShloMosaic.MatmulColumns

end
-- ==== Proof.Spec.lean ====
/-
  The pathway network's value, entry by entry, over the extended reals.

  For every pathway `p` the graph aggregation is the matrix product of that pathway's Laplacian with its
  expression block, `c[p, n, f] = ∑ₖ lpls[p, n, k] · exp[p, k, f]`. The two-layer perceptron then runs over the
  cells `f`, the genes `n` of the pathway being its features: the hidden layer is
  `h[p, f, j] = max (∑ₙ c[p, n, f] · W1[p, n, j] + b1[p, j]) 0` and the result is
  `out[p, f, o] = ∑ⱼ h[p, f, j] · W2[p, j, o] + b2[p, o]`.
  Both programs of the certificate compute exactly these nested sums, in the same nesting; they differ in
  where the transposition of `c` is taken (the reference transposes the array, the kernel contracts the first
  axis of both operands), in the tiling of the cell axis, and in the number formats, which carry no meaning over
  the extended reals. The zero of the rectifier is kept as the word both programs print.
-/
import Idealize.ShloMosaic.PureOps.Ideal.Laws
import Idealize.ShloMosaic.Lib.ValueIdx

noncomputable section

open scoped BigOperators

namespace Cert.Pathway

open Idealize.ShloMosaic Idealize.ShloMosaic.ValueIdx

/-- The rectifier's threshold: the word `0x00000000` read as an extended real. -/
abbrev floor0 : EReal := Ideal.ofBits .f32 0x00000000#32

/-- The aggregation `c[p, n, f]`: row `n` of the pathway's Laplacian against column `f` of its expression block. -/
def agg (L : (⟨3, ![64, 256, 256]⟩ : Shape).Idx → EReal) (E : (⟨3, ![64, 256, 4096]⟩ : Shape).Idx → EReal)
    (p : Fin 64) (n : Fin 256) (f : Fin 4096) : EReal :=
  ∑ k : Fin 256, L (ix3 p n k) * E (ix3 p k f)

/-- The hidden unit `h[p, f, j]`: the cell's aggregated genes against column `j` of the first weight matrix,
    plus the bias, rectified. -/
def hidden (L : (⟨3, ![64, 256, 256]⟩ : Shape).Idx → EReal) (E : (⟨3, ![64, 256, 4096]⟩ : Shape).Idx → EReal)
    (W1 : (⟨3, ![64, 256, 512]⟩ : Shape).Idx → EReal) (B1 : (⟨2, ![64, 512]⟩ : Shape).Idx → EReal)
    (p : Fin 64) (f : Fin 4096) (j : Fin 512) : EReal :=
  max ((∑ n : Fin 256, agg L E p n f * W1 (ix3 p n j)) + B1 (ix2 p j)) floor0

/-- The output `out[p, f, o]`: the cell's hidden units against column `o` of the second weight matrix, plus the bias. -/
def outAt (L : (⟨3, ![64, 256, 256]⟩ : Shape).Idx → EReal) (E : (⟨3, ![64, 256, 4096]⟩ : Shape).Idx → EReal)
    (W1 : (⟨3, ![64, 256, 512]⟩ : Shape).Idx → EReal) (B1 : (⟨2, ![64, 512]⟩ : Shape).Idx → EReal)
    (W2 : (⟨3, ![64, 512, 64]⟩ : Shape).Idx → EReal) (B2 : (⟨2, ![64, 64]⟩ : Shape).Idx → EReal)
    (p : Fin 64) (f : Fin 4096) (o : Fin 64) : EReal :=
  (∑ j : Fin 512, hidden L E W1 B1 p f j * W2 (ix3 p j o)) + B2 (ix2 p o)

/-- The whole result array as one function of the six argument arrays. -/
def result (L : (⟨3, ![64, 256, 256]⟩ : Shape).Idx → EReal) (E : (⟨3, ![64, 256, 4096]⟩ : Shape).Idx → EReal)
    (W1 : (⟨3, ![64, 256, 512]⟩ : Shape).Idx → EReal) (B1 : (⟨2, ![64, 512]⟩ : Shape).Idx → EReal)
    (W2 : (⟨3, ![64, 512, 64]⟩ : Shape).Idx → EReal) (B2 : (⟨2, ![64, 64]⟩ : Shape).Idx → EReal) :
    (⟨3, ![64, 4096, 64]⟩ : Shape).Idx → EReal :=
  fun i => outAt L E W1 B1 W2 B2 (i 0) (i 1) (i 2)

theorem result_apply (L : (⟨3, ![64, 256, 256]⟩ : Shape).Idx → EReal) (E : (⟨3, ![64, 256, 4096]⟩ : Shape).Idx → EReal)
    (W1 : (⟨3, ![64, 256, 512]⟩ : Shape).Idx → EReal) (B1 : (⟨2, ![64, 512]⟩ : Shape).Idx → EReal)
    (W2 : (⟨3, ![64, 512, 64]⟩ : Shape).Idx → EReal) (B2 : (⟨2, ![64, 64]⟩ : Shape).Idx → EReal)
    (p : Fin 64) (f : Fin 4096) (o : Fin 64) :
    result L E W1 B1 W2 B2 (ix3 p f o) = outAt L E W1 B1 W2 B2 p f o := rfl

end Cert.Pathway

end
-- ==== Proof.Payload.lean ====
/-
  The kernel body's one stored value, read entry by entry over the extended reals.

  At a grid point the body holds one pathway's Laplacian `x0` (256 × 256), a tile of 1024 cells of its
  expression block `x1` (256 × 1024), its first weight matrix `x2` (256 × 512) with bias row `x3`, and its
  second weight matrix `x4` (512 × 64) with bias row `x5`, each with a leading unit axis. It forms
  `c = x0 · x1`, then `cᵀ · x2` by contracting the first axis of both operands (no transposed copy of `c` is
  made), adds the bias row to every cell, rectifies, multiplies by `x4` and adds the second bias row. Changes of
  number format are the identity on extended reals, and a product accumulated into zero is the plain sum over the
  contracted axis, so entry `(f, o)` of the stored tile is
  `∑ⱼ max (∑ₙ (∑ₖ x0[n, k] · x1[k, f]) · x2[n, j] + x3[j]) 0 · x4[j, o] + x5[o]`.
-/
import proofs.«175442_j8031588843578_1_alg».proof.Proof.Gen.KernelIdeal.Skeleton
import proofs.«175442_j8031588843578_1_alg».proof.Proof.LibPlainProduct
import proofs.«175442_j8031588843578_1_alg».proof.Proof.LibMatmulColumns
import proofs.«175442_j8031588843578_1_alg».proof.Proof.Spec
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The aggregation product of a tile: rows of the Laplacian against columns of the expression tile. -/
theorem aggProduct_apply (a : FVec Ideal S256x256 .bf16) (b : FVec Ideal S256x1024 .bf16) (n : Fin 256) (f : Fin 1024) :
    matmul dot_S256x256_S256x1024_S256x1024_1_0_0_1_n_n none a b (constant S256x1024 .f32 0x00000000#32) (ix2 n f)
      = ∑ k : Fin 256, a (ix2 n k) * b (ix2 k f) :=
  Cert.LibPlainProduct.matmul_zero_plain_apply a b none n f

/-- The first layer's product: the aggregated tile and the weight matrix both contracted on their gene axis. -/
theorem firstLayer_apply (a : FVec Ideal S256x1024 .bf16) (b : FVec Ideal S256x512 .bf16) (f : Fin 1024) (j : Fin 512) :
    matmul dot_S256x1024_S256x512_S1024x512_0_0_1_1_n_n none a b (constant S1024x512 .f32 0x00000000#32) (ix2 f j)
      = ∑ n : Fin 256, a (ix2 n f) * b (ix2 n j) :=
  Idealize.ShloMosaic.MatmulColumns.matmul_zero_apply none a b f j

/-- The second layer's product: a cell's hidden units against a column of the second weight matrix. -/
theorem secondLayer_apply (a : FVec Ideal S1024x512 .bf16) (b : FVec Ideal S512x64 .bf16) (f : Fin 1024) (o : Fin 64) :
    matmul dot_S1024x512_S512x64_S1024x64_1_0_0_1_n_n none a b (constant S1024x64 .f32 0x00000000#32) (ix2 f o)
      = ∑ j : Fin 512, a (ix2 f j) * b (ix2 j o) :=
  Cert.LibPlainProduct.matmul_zero_plain_apply a b none f o

/-- The stored tile at entry `(f, o)`, as nested sums of the loaded blocks' entries. -/
theorem stored_apply (x0 : Vec Ideal S1x256x256 .f32) (x1 : Vec Ideal S1x256x1024 .f32) (x2 : Vec Ideal S1x256x512 .f32)
    (x3 : Vec Ideal S1x1x512 .f32) (x4 : Vec Ideal S1x512x64 .f32) (x5 : Vec Ideal S1x1x64 .f32)
    (u : Fin 1) (f : Fin 1024) (o : Fin 64) :
    k0_pay1 (F := Ideal) x0 x1 x2 x3 x4 x5 (ix3 u f o)
      = (∑ j : Fin 512, max ((∑ n : Fin 256, (∑ k : Fin 256, x0 (ix3 (0 : Fin 1) n k) * x1 (ix3 (0 : Fin 1) k f))
            * x2 (ix3 (0 : Fin 1) n j)) + x3 (ix3 (0 : Fin 1) (0 : Fin 1) j)) Cert.Pathway.floor0 * x4 (ix3 (0 : Fin 1) j o))
          + x5 (ix3 (0 : Fin 1) (0 : Fin 1) o) := by
  unfold k0_pay1
  simp only [shapeCast_ab_1ab_apply, addf_apply, secondLayer_apply, truncf_apply, maximumf_apply, firstLayer_apply,
    aggProduct_apply, shapeCast_1ab_ab_apply, broadcastTo_1b_ab_apply, broadcast_apply]
  rfl

/-- The stored tile is a tile of the network's value: if the loaded blocks are pathway `p`'s slices of the six
    arrays, the expression block being cells `1024·b … 1024·b + 1023`, then entry `(f, o)` of the stored tile is the
    network's value at pathway `p`, cell `1024·b + f`, output `o`. -/
theorem stored_is_value
    (L : (⟨3, ![64, 256, 256]⟩ : Shape).Idx → EReal) (E : (⟨3, ![64, 256, 4096]⟩ : Shape).Idx → EReal)
    (W1 : (⟨3, ![64, 256, 512]⟩ : Shape).Idx → EReal) (B1 : (⟨2, ![64, 512]⟩ : Shape).Idx → EReal)
    (W2 : (⟨3, ![64, 512, 64]⟩ : Shape).Idx → EReal) (B2 : (⟨2, ![64, 64]⟩ : Shape).Idx → EReal)
    (x0 : Vec Ideal S1x256x256 .f32) (x1 : Vec Ideal S1x256x1024 .f32) (x2 : Vec Ideal S1x256x512 .f32)
    (x3 : Vec Ideal S1x1x512 .f32) (x4 : Vec Ideal S1x512x64 .f32) (x5 : Vec Ideal S1x1x64 .f32)
    (p : Fin 64) (cell : Fin 1024 → Fin 4096)
    (h0 : ∀ (n k : Fin 256), x0 (ix3 (0 : Fin 1) n k) = L (ix3 p n k))
    (h1 : ∀ (k : Fin 256) (f : Fin 1024), x1 (ix3 (0 : Fin 1) k f) = E (ix3 p k (cell f)))
    (h2 : ∀ (n : Fin 256) (j : Fin 512), x2 (ix3 (0 : Fin 1) n j) = W1 (ix3 p n j))
    (h3 : ∀ j : Fin 512, x3 (ix3 (0 : Fin 1) (0 : Fin 1) j) = B1 (ix2 p j))
    (h4 : ∀ (j : Fin 512) (o : Fin 64), x4 (ix3 (0 : Fin 1) j o) = W2 (ix3 p j o))
    (h5 : ∀ o : Fin 64, x5 (ix3 (0 : Fin 1) (0 : Fin 1) o) = B2 (ix2 p o))
    (u : Fin 1) (f : Fin 1024) (o : Fin 64) :
    k0_pay1 (F := Ideal) x0 x1 x2 x3 x4 x5 (ix3 u f o) = Cert.Pathway.outAt L E W1 B1 W2 B2 p (cell f) o := by
  rw [stored_apply]
  unfold Cert.Pathway.outAt Cert.Pathway.hidden Cert.Pathway.agg
  simp only [h0, h1, h2, h3, h4, h5]

end Cert.KernelIdeal.Body

end
-- ==== Proof.Tiles.lean ====
/-
  From tiles to the whole result array.

  The grid has 64 × 4 points: point `t` works on pathway `p = t / 4` and on the tile of cells
  `1024·b … 1024·b + 1023` with `b = t mod 4`. At that point the six input blocks are pathway `p`'s slices of the
  argument arrays (the expression block restricted to the tile's cells; the two biases reach the kernel with a unit
  axis inserted by a reshape, which moves no entry), and the block written back is rows `1024·b …` of pathway `p` of
  the result. So what each point writes back is its block of ONE function of the arguments, the network's value;
  the 256 blocks tile the result array (row `r` of pathway `p` lies in the block of point `(p, r / 1024)`), hence the
  array ends holding that function.
-/
import proofs.«175442_j8031588843578_1_alg».proof.Proof.Gen.KernelIdeal.Value
import proofs.«175442_j8031588843578_1_alg».proof.Proof.Payload
import proofs.«175442_j8031588843578_1_alg».proof.Proof.Spec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Value Cert.Pathway

variable (m : (ℓ : Loc nD τ sig) → Buf (Elt Ideal) ℓ) (ρ : Dev nD → PrngReg)

theorem zero_offsets : (![0, 0, 0] : Fin 3 → Nat) = fun _ => 0 := funext fun a => by fin_cases a <;> rfl

/-- The network's value of the argument arrays as launched. -/
abbrev value (c : Dev nD) : S64x4096x64.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The biases as the region finds them -/

/-- The first bias with its unit axis: entry `(p, 0, j)` is `b1[p, j]`. -/
theorem bias1_entry (c : Dev nD) (p : Fin 64) (u : Fin 1) (j : Fin 512) :
    (V m c main_v0 : S64x1x512.Idx → EReal) (ix3 p u j)
      = (m ((c : Thread nD τ).loc main_arg3) : S64x512.Idx → EReal) (ix2 p j) := by
  have e : (V m c main_v0 : S64x1x512.Idx → EReal)
      = shapeCast S64x1x512 (m ((c : Thread nD τ).loc main_arg3) : S64x512.Idx → EReal) shapeCasts_S64x512_S64x1x512 := by
    dsimp only [Gen.V, Gen.hostOps0]; after_results; rfl
  rw [e]
  refine shapeCast_apply _ _ _ _ ?_
  have hu : u.val = 0 := by omega
  show (S64x512.rowMajor (ix2 p j)).val = (S64x1x512.rowMajor (ix3 p u j)).val
  rw [Shape.rowMajor_val_three, Shape.rowMajor_val_two]
  show p.val * 512 + j.val = (p.val * 1 + u.val) * 512 + j.val
  omega

/-- The second bias with its unit axis: entry `(p, 0, o)` is `b2[p, o]`. -/
theorem bias2_entry (c : Dev nD) (p : Fin 64) (u : Fin 1) (o : Fin 64) :
    (V m c main_v1 : S64x1x64.Idx → EReal) (ix3 p u o)
      = (m ((c : Thread nD τ).loc main_arg5) : S64x64.Idx → EReal) (ix2 p o) := by
  have e : (V m c main_v1 : S64x1x64.Idx → EReal)
      = shapeCast S64x1x64 (m ((c : Thread nD τ).loc main_arg5) : S64x64.Idx → EReal) shapeCasts_S64x64_S64x1x64 := by
    dsimp only [Gen.V, Gen.hostOps0]; after_results; rfl
  rw [e]
  refine shapeCast_apply _ _ _ _ ?_
  have hu : u.val = 0 := by omega
  show (S64x64.rowMajor (ix2 p o)).val = (S64x1x64.rowMajor (ix3 p u o)).val
  rw [Shape.rowMajor_val_three, Shape.rowMajor_val_two]
  show p.val * 64 + o.val = (p.val * 1 + u.val) * 64 + o.val
  omega

/-! ## The index maps over the grid -/

/-- Every input window sits on the output block's pathway; the expression window also on its cell tile; all other
    block indices are zero. The output's block indices range over 64 pathways and 4 tiles. -/
theorem block_indices : ∀ t : Fin cfg0.N,
    win0_0.index t (0 : Fin 3) = win0_6.index t (0 : Fin 3) ∧ win0_0.index t (1 : Fin 3) = 0 ∧ win0_0.index t (2 : Fin 3) = 0
    ∧ win0_1.index t (0 : Fin 3) = win0_6.index t (0 : Fin 3) ∧ win0_1.index t (1 : Fin 3) = 0 ∧ win0_1.index t (2 : Fin 3) = win0_6.index t (1 : Fin 3)
    ∧ win0_2.index t (0 : Fin 3) = win0_6.index t (0 : Fin 3) ∧ win0_2.index t (1 : Fin 3) = 0 ∧ win0_2.index t (2 : Fin 3) = 0
    ∧ win0_3.index t (0 : Fin 3) = win0_6.index t (0 : Fin 3) ∧ win0_3.index t (1 : Fin 3) = 0 ∧ win0_3.index t (2 : Fin 3) = 0
    ∧ win0_4.index t (0 : Fin 3) = win0_6.index t (0 : Fin 3) ∧ win0_4.index t (1 : Fin 3) = 0 ∧ win0_4.index t (2 : Fin 3) = 0
    ∧ win0_5.index t (0 : Fin 3) = win0_6.index t (0 : Fin 3) ∧ win0_5.index t (1 : Fin 3) = 0 ∧ win0_5.index t (2 : Fin 3) = 0
    ∧ win0_6.index t (0 : Fin 3) ≤ 63 ∧ win0_6.index t (1 : Fin 3) ≤ 3 ∧ win0_6.index t (2 : Fin 3) = 0 :=
  (by decide +kernel : ∀ t : Fin grid0.N, _)

/-- Every (pathway, tile) pair is some point's output block. -/
theorem block_onto : ∀ (q0 : Fin 64) (q1 : Fin 4), ∃ t : Fin cfg0.N, win0_6.index t = ![q0.val, q1.val, 0] :=
  (by decide +kernel : ∀ (q0 : Fin 64) (q1 : Fin 4), ∃ t : Fin grid0.N, win0_6.index t = ![q0.val, q1.val, 0])

/-- The pathway point `t` works on. -/
def pathwayOf (t : Fin cfg0.N) : Fin 64 := ⟨win0_6.index t (0 : Fin 3), by have := (block_indices t).2.2.2.2.2.2.2.2.2.2.2.2.2.2.2.2.2.2.1; omega⟩

/-- The cell that column `f` of point `t`'s tile holds. -/
def cellOf (t : Fin cfg0.N) (f : Fin 1024) : Fin 4096 :=
  ⟨win0_6.index t (1 : Fin 3) * 1024 + f.val, by have := (block_indices t).2.2.2.2.2.2.2.2.2.2.2.2.2.2.2.2.2.2.2.1; omega⟩

/-! ## The input blocks at a point -/

/-- The Laplacian block at point `t` is pathway `p`'s Laplacian. -/
theorem laplacian_block (c : Dev nD) (t : Fin cfg0.N) (n k : Fin 256) :
    (iblk m c 0 t : Vec Ideal S1x256x256 .f32) (ix3 (0 : Fin 1) n k)
      = (m ((c : Thread nD τ).loc main_arg0) : S64x256x256.Idx → EReal) (ix3 (pathwayOf t) n k) := by
  obtain ⟨e0, e1, e2, -⟩ := block_indices t
  show V m c main_arg0 (((cfg0.win 0).blk t).view.emb (ix3 (0 : Fin 1) n k)) = _
  rw [V_main_arg0]
  refine congrArg _ (funext fun a => Fin.ext ?_)
  match a with
  | ⟨0, _⟩ => show win0_0.index t (0 : Fin 3) * 1 + 1 * 0 = win0_6.index t (0 : Fin 3); omega
  | ⟨1, _⟩ => show win0_0.index t (1 : Fin 3) * 256 + 1 * n.val = n.val; omega
  | ⟨2, _⟩ => show win0_0.index t (2 : Fin 3) * 256 + 1 * k.val = k.val; omega

/-- The expression block at point `t` is pathway `p`'s expression block restricted to the tile's cells. -/
theorem expression_block (c : Dev nD) (t : Fin cfg0.N) (k : Fin 256) (f : Fin 1024) :
    (iblk m c 1 t : Vec Ideal S1x256x1024 .f32) (ix3 (0 : Fin 1) k f)
      = (m ((c : Thread nD τ).loc main_arg1) : S64x256x4096.Idx → EReal) (ix3 (pathwayOf t) k (cellOf t f)) := by
  obtain ⟨-, -, -, e0, e1, e2, -⟩ := block_indices t
  show V m c main_arg1 (((cfg0.win 1).blk t).view.emb (ix3 (0 : Fin 1) k f)) = _
  rw [V_main_arg1]
  refine congrArg _ (funext fun a => Fin.ext ?_)
  match a with
  | ⟨0, _⟩ => show win0_1.index t (0 : Fin 3) * 1 + 1 * 0 = win0_6.index t (0 : Fin 3); omega
  | ⟨1, _⟩ => show win0_1.index t (1 : Fin 3) * 256 + 1 * k.val = k.val; omega
  | ⟨2, _⟩ => show win0_1.index t (2 : Fin 3) * 1024 + 1 * f.val = win0_6.index t (1 : Fin 3) * 1024 + f.val; omega

/-- The first weight block at point `t` is pathway `p`'s first weight matrix. -/
theorem weight1_block (c : Dev nD) (t : Fin cfg0.N) (n : Fin 256) (j : Fin 512) :
    (iblk m c 2 t : Vec Ideal S1x256x512 .f32) (ix3 (0 : Fin 1) n j)
      = (m ((c : Thread nD τ).loc main_arg2) : S64x256x512.Idx → EReal) (ix3 (pathwayOf t) n j) := by
  obtain ⟨-, -, -, -, -, -, e0, e1, e2, -⟩ := block_indices t
  show V m c main_arg2 (((cfg0.win 2).blk t).view.emb (ix3 (0 : Fin 1) n j)) = _
  rw [V_main_arg2]
  refine congrArg _ (funext fun a => Fin.ext ?_)
  match a with
  | ⟨0, _⟩ => show win0_2.index t (0 : Fin 3) * 1 + 1 * 0 = win0_6.index t (0 : Fin 3); omega
  | ⟨1, _⟩ => show win0_2.index t (1 : Fin 3) * 256 + 1 * n.val = n.val; omega
  | ⟨2, _⟩ => show win0_2.index t (2 : Fin 3) * 512 + 1 * j.val = j.val; omega

/-- The first bias block at point `t` is pathway `p`'s first bias row. -/
theorem bias1_block (c : Dev nD) (t : Fin cfg0.N) (j : Fin 512) :
    (iblk m c 3 t : Vec Ideal S1x1x512 .f32) (ix3 (0 : Fin 1) (0 : Fin 1) j)
      = (m ((c : Thread nD τ).loc main_arg3) : S64x512.Idx → EReal) (ix2 (pathwayOf t) j) := by
  obtain ⟨-, -, -, -, -, -, -, -, -, e0, e1, e2, -⟩ := block_indices t
  show V m c main_v0 (((cfg0.win 3).blk t).view.emb (ix3 (0 : Fin 1) (0 : Fin 1) j)) = _
  refine Eq.trans (congrArg _ (funext fun a => Fin.ext ?_)) (bias1_entry m c (pathwayOf t) (0 : Fin 1) j)
  match a with
  | ⟨0, _⟩ => show win0_3.index t (0 : Fin 3) * 1 + 1 * 0 = win0_6.index t (0 : Fin 3); omega
  | ⟨1, _⟩ => show win0_3.index t (1 : Fin 3) * 1 + 1 * 0 = 0; omega
  | ⟨2, _⟩ => show win0_3.index t (2 : Fin 3) * 512 + 1 * j.val = j.val; omega

/-- The second weight block at point `t` is pathway `p`'s second weight matrix. -/
theorem weight2_block (c : Dev nD) (t : Fin cfg0.N) (j : Fin 512) (o : Fin 64) :
    (iblk m c 4 t : Vec Ideal S1x512x64 .f32) (ix3 (0 : Fin 1) j o)
      = (m ((c : Thread nD τ).loc main_arg4) : S64x512x64.Idx → EReal) (ix3 (pathwayOf t) j o) := by
  obtain ⟨-, -, -, -, -, -, -, -, -, -, -, -, e0, e1, e2, -⟩ := block_indices t
  show V m c main_arg4 (((cfg0.win 4).blk t).view.emb (ix3 (0 : Fin 1) j o)) = _
  rw [V_main_arg4]
  refine congrArg _ (funext fun a => Fin.ext ?_)
  match a with
  | ⟨0, _⟩ => show win0_4.index t (0 : Fin 3) * 1 + 1 * 0 = win0_6.index t (0 : Fin 3); omega
  | ⟨1, _⟩ => show win0_4.index t (1 : Fin 3) * 512 + 1 * j.val = j.val; omega
  | ⟨2, _⟩ => show win0_4.index t (2 : Fin 3) * 64 + 1 * o.val = o.val; omega

/-- The second bias block at point `t` is pathway `p`'s second bias row. -/
theorem bias2_block (c : Dev nD) (t : Fin cfg0.N) (o : Fin 64) :
    (iblk m c 5 t : Vec Ideal S1x1x64 .f32) (ix3 (0 : Fin 1) (0 : Fin 1) o)
      = (m ((c : Thread nD τ).loc main_arg5) : S64x64.Idx → EReal) (ix2 (pathwayOf t) o) := by
  obtain ⟨-, -, -, -, -, -, -, -, -, -, -, -, -, -, -, e0, e1, e2, -⟩ := block_indices t
  show V m c main_v1 (((cfg0.win 5).blk t).view.emb (ix3 (0 : Fin 1) (0 : Fin 1) o)) = _
  refine Eq.trans (congrArg _ (funext fun a => Fin.ext ?_)) (bias2_entry m c (pathwayOf t) (0 : Fin 1) o)
  match a with
  | ⟨0, _⟩ => show win0_5.index t (0 : Fin 3) * 1 + 1 * 0 = win0_6.index t (0 : Fin 3); omega
  | ⟨1, _⟩ => show win0_5.index t (1 : Fin 3) * 1 + 1 * 0 = 0; omega
  | ⟨2, _⟩ => show win0_5.index t (2 : Fin 3) * 64 + 1 * o.val = o.val; omega

/-! ## What a point writes back, and the array after the run -/

/-- What point `t` writes back is its block of the network's value. -/
theorem flushed_eq (c : Dev nD) (t : Fin cfg0.N) :
    (dats m 0 c).flushed 6 t = ((cfg0.win 6).blk t).view.read (Elt Ideal) (value m c) := by
  rw [Value.flushed6]
  unfold out0_6
  rw [View.canon_unit_zero zero_offsets]
  simp only [View.ld_unit_zero (S := S1x256x256) zero_offsets, View.ld_unit_zero (S := S1x256x1024) zero_offsets,
    View.ld_unit_zero (S := S1x256x512) zero_offsets, View.ld_unit_zero (S := S1x1x512) zero_offsets,
    View.ld_unit_zero (S := S1x512x64) zero_offsets, View.ld_unit_zero (S := S1x1x64) zero_offsets]
  funext y
  obtain ⟨u, f, o, rfl⟩ : ∃ (u : Fin 1) (f : Fin 1024) (o : Fin 64), y = ix3 u f o := ⟨y 0, y 1, y 2, eq_ix3 y⟩
  show k0_pay1 (F := Ideal) (iblk m c 0 t) (iblk m c 1 t) (iblk m c 2 t) (iblk m c 3 t) (iblk m c 4 t) (iblk m c 5 t) (ix3 u f o)
    = value m c (((cfg0.win 6).blk t).view.emb (ix3 u f o))
  refine (Cert.KernelIdeal.Body.stored_is_value
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t)
    (pathwayOf t) (cellOf t)
    (laplacian_block m c t) (expression_block m c t) (weight1_block m c t) (bias1_block m c t) (weight2_block m c t)
    (bias2_block m c t) u f o).trans ?_
  have hu : u.val = 0 := by omega
  have e2 := (block_indices t).2.2.2.2.2.2.2.2.2.2.2.2.2.2.2.2.2.2.2.2
  refine (result_apply _ _ _ _ _ _ (pathwayOf t) (cellOf t f) o).symm.trans (congrArg (value m c) (funext fun a => Fin.ext ?_))
  match a with
  | ⟨0, _⟩ => show win0_6.index t (0 : Fin 3) = win0_6.index t (0 : Fin 3) * 1 + 1 * u.val; omega
  | ⟨1, _⟩ => show win0_6.index t (1 : Fin 3) * 1024 + f.val = win0_6.index t (1 : Fin 3) * 1024 + 1 * f.val; omega
  | ⟨2, _⟩ => show o.val = win0_6.index t (2 : Fin 3) * 64 + 1 * o.val; omega

/-- An index of the result array lies in point `t`'s block iff each coordinate lies in the block's range. -/
theorem mem_block (t : Fin cfg0.N) (i : S64x4096x64.Idx) :
    i ∈ ((cfg0.win 6).blk t).view.set ↔ ∀ a : Fin 3, win0_6.index t a * S1x1024x64.size a ≤ (i a).val
      ∧ (i a).val < win0_6.index t a * S1x1024x64.size a + S1x1024x64.size a := by
  show i ∈ ((View.whole main_v2).slice (win0_6.rect t)).set ↔ _
  rw [View.set_slice_whole, Rect.mem_set_unit]
  exact Iff.rfl

/-- The blocks tile the result array: row `r` of pathway `p` lies in the block of the point at `(p, r / 1024)`. -/
theorem covered (i : S64x4096x64.Idx) :
    ∃ t : Fin cfg0.N, (cfg0.win 6).flush t = true ∧ i ∈ ((cfg0.win 6).blk t).view.set := by
  have hi0 : (i 0).val < 64 := (i 0).isLt
  have hi1 : (i 1).val < 4096 := (i 1).isLt
  have hi2 : (i 2).val < 64 := (i 2).isLt
  obtain ⟨t, ht⟩ := block_onto ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 64 ≤ (i 2).val ∧ (i 2).val < win0_6.index t (2 : Fin 3) * 64 + 64; omega

/-- The result array after the run is the network's value of the arguments. -/
theorem final (c : Dev nD) : (dats m 0 c).arrAt 6 cfg0.N = value m c :=
  (dats m 0 c).arrAt_eq_of_cover 6 (value m c) (fun t _ => flushed_eq m c t) covered

/-- The kernel's run, read: the result array at the network's value, the arguments unchanged. -/
theorem run : θ_run defs (onTc (τ := τ) (main (F := Ideal))) ⟨m, fun _ => 0, ρ⟩ fun r => ∀ c : Dev nD,
      r.2.mem ((c : Thread nD τ).loc main_v2) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Tiles

end
-- ==== Proof.RefValue.lean ====
/-
  The reference program's result is the pathway network's value.

  The reference computes the aggregation `c = lpls · exp` pathway by pathway, swaps its last two axes, multiplies
  by the first weight matrix, adds the bias broadcast over the cells, rectifies against a broadcast zero, multiplies
  by the second weight matrix and adds the second bias. Read one stage at a time at coordinates `(p, f, ·)`: the
  transposed aggregation at `(p, f, n)` is the aggregation at `(p, n, f)`; each batched product is the sum over its
  one contracted axis within pathway `p`; a bias broadcast over the cell axis reads `b[p, ·]`. Composed, entry
  `(p, f, o)` is the nested sum that defines the network's value.
-/
import proofs.«175442_j8031588843578_1_alg».proof.Proof.Gen.ReferenceIdeal.Read
import proofs.«175442_j8031588843578_1_alg».proof.Proof.Spec

noncomputable section

open scoped BigOperators

namespace Cert.ReferenceIdeal.RefValue

open Cert.ReferenceIdeal Cert.ReferenceIdeal.Read Idealize.ShloMosaic Idealize.ShloMosaic.ValueIdx Cert.Pathway

variable (x0 : (⟨S64x256x256, .f32⟩ : BufTy).Contents (Elt Ideal)) (x1 : (⟨S64x256x4096, .f32⟩ : BufTy).Contents (Elt Ideal))
  (x2 : (⟨S64x256x512, .f32⟩ : BufTy).Contents (Elt Ideal)) (x3 : (⟨S64x512, .f32⟩ : BufTy).Contents (Elt Ideal))
  (x4 : (⟨S64x512x64, .f32⟩ : BufTy).Contents (Elt Ideal)) (x5 : (⟨S64x64, .f32⟩ : BufTy).Contents (Elt Ideal))

/-- The aggregation stage at `(p, n, f)`. -/
theorem agg_at (p : Fin 64) (n : Fin 256) (f : Fin 4096) :
    val_main_v0 (F := Ideal) x0 x1 (ix3 p n f) = agg x0 x1 p n f := by
  rw [val_main_v0_apply]
  unfold agg
  refine Finset.sum_congr rfl fun k _ => ?_
  have el : lidx_main_v0 (ix3 p n f) k = ix3 p n k :=
    funext fun a => match a with | ⟨0, _⟩ => rfl | ⟨1, _⟩ => rfl | ⟨2, _⟩ => rfl
  have er : ridx_main_v0 (ix3 p n f) k = ix3 p k f :=
    funext fun a => match a with | ⟨0, _⟩ => rfl | ⟨1, _⟩ => rfl | ⟨2, _⟩ => rfl
  rw [el, er]

/-- The swapped aggregation at `(p, f, n)` is the aggregation at `(p, n, f)`. -/
theorem aggSwapped_at (p : Fin 64) (f : Fin 4096) (n : Fin 256) :
    val_main_v1 (F := Ideal) x0 x1 (ix3 p f n) = agg x0 x1 p n f := by
  rw [val_main_v1_apply]
  have e : idx_main_v1 (ix3 p f n) = ix3 p n f :=
    funext fun a => match a with | ⟨0, _⟩ => rfl | ⟨1, _⟩ => rfl | ⟨2, _⟩ => rfl
  rw [e]
  exact agg_at x0 x1 p n f

/-- The first layer before its bias, at `(p, f, j)`. -/
theorem firstLayer_at (p : Fin 64) (f : Fin 4096) (j : Fin 512) :
    val_main_v2 (F := Ideal) x0 x1 x2 (ix3 p f j) = ∑ n : Fin 256, agg x0 x1 p n f * x2 (ix3 p n j) := by
  rw [val_main_v2_apply]
  refine Finset.sum_congr rfl fun n _ => ?_
  have el : lidx_main_v2 (ix3 p f j) n = ix3 p f n :=
    funext fun a => match a with | ⟨0, _⟩ => rfl | ⟨1, _⟩ => rfl | ⟨2, _⟩ => rfl
  have er : ridx_main_v2 (ix3 p f j) n = ix3 p n j :=
    funext fun a => match a with | ⟨0, _⟩ => rfl | ⟨1, _⟩ => rfl | ⟨2, _⟩ => rfl
  rw [el, er, aggSwapped_at]

/-- The first bias broadcast over the cells, at `(p, f, j)`. -/
theorem firstBias_at (p : Fin 64) (f : Fin 4096) (j : Fin 512) :
    val_main_v4 (F := Ideal) x3 (ix3 p f j) = x3 (ix2 p j) := by
  rw [val_main_v4_apply, val_main_v3_apply]
  exact congrArg x3 (funext fun a => match a with | ⟨0, _⟩ => rfl | ⟨1, _⟩ => rfl)

/-- The hidden layer at `(p, f, j)`. -/
theorem hidden_at (p : Fin 64) (f : Fin 4096) (j : Fin 512) :
    val_main_v6 (F := Ideal) x0 x1 x2 x3 (ix3 p f j) = hidden x0 x1 x2 x3 p f j := by
  rw [val_main_v6_apply, val_main_v5_apply, firstLayer_at, firstBias_at, val_main_call0_v0_apply, val_main_call0_cst_apply]
  rfl

/-- The second layer before its bias, at `(p, f, o)`. -/
theorem secondLayer_at (p : Fin 64) (f : Fin 4096) (o : Fin 64) :
    val_main_v7 (F := Ideal) x0 x1 x2 x3 x4 (ix3 p f o) = ∑ j : Fin 512, hidden x0 x1 x2 x3 p f j * x4 (ix3 p j o) := by
  rw [val_main_v7_apply]
  refine Finset.sum_congr rfl fun j _ => ?_
  have el : lidx_main_v7 (ix3 p f o) j = ix3 p f j :=
    funext fun a => match a with | ⟨0, _⟩ => rfl | ⟨1, _⟩ => rfl | ⟨2, _⟩ => rfl
  have er : ridx_main_v7 (ix3 p f o) j = ix3 p j o :=
    funext fun a => match a with | ⟨0, _⟩ => rfl | ⟨1, _⟩ => rfl | ⟨2, _⟩ => rfl
  rw [el, er, hidden_at]

/-- The second bias broadcast over the cells, at `(p, f, o)`. -/
theorem secondBias_at (p : Fin 64) (f : Fin 4096) (o : Fin 64) :
    val_main_v9 (F := Ideal) x5 (ix3 p f o) = x5 (ix2 p o) := by
  rw [val_main_v9_apply, val_main_v8_apply]
  exact congrArg x5 (funext fun a => match a with | ⟨0, _⟩ => rfl | ⟨1, _⟩ => rfl)

/-- The reference's last stage is the network's value, as arrays. -/
theorem result_eq : val_main_v10 (F := Ideal) x0 x1 x2 x3 x4 x5 = result x0 x1 x2 x3 x4 x5 := by
  funext i
  obtain ⟨p, f, o, rfl⟩ : ∃ (p : Fin 64) (f : Fin 4096) (o : Fin 64), i = ix3 p f o := ⟨i 0, i 1, i 2, eq_ix3 i⟩
  rw [val_main_v10_apply, secondLayer_at, secondBias_at]
  rfl

end Cert.ReferenceIdeal.RefValue

end
-- ==== Proof.lean ====
/-
  The pathway network kernel against its reference, over the extended reals.

  For each of 64 pathways both programs aggregate the pathway's expression block with its Laplacian,
  `c = lpls · exp`, run a two-layer perceptron over the cells with the aggregated genes as features,
  `h = max (cᵀ · W1 + b1) 0`, `out = h · W2 + b2`, and return `out`. The kernel does this for one pathway and one
  tile of 1024 cells per grid point, with its operands narrowed to a shorter float format before each product; the
  reference does it with three batched products over whole arrays. Over the extended reals a change of format is the
  identity and a product accumulated into zero is the plain sum over the contracted axis, so both programs end
  with the same nested sums at every entry `(p, f, o)` (`Cert.Pathway.result`): the kernel's tiles by
  `Cert.KernelIdeal.Tiles.run`, the reference's stages by `Cert.ReferenceIdeal.RefValue.result_eq`. No law beyond
  reading both programs at an entry is used, so the finiteness of the inputs is never opened.
  The three frames are the generated frame runs (the reference's is its run with the result dropped), and the
  idealization rewrote no operation, so it has nothing to preserve.
-/
import proofs.«175442_j8031588843578_1_alg».proof.Defs
import proofs.«175442_j8031588843578_1_alg».proof.Proof.Gen.Kernel
import proofs.«175442_j8031588843578_1_alg».proof.Proof.Gen.Kernel.Skeleton
import proofs.«175442_j8031588843578_1_alg».proof.Proof.Gen.Kernel.Launch
import proofs.«175442_j8031588843578_1_alg».proof.Proof.Gen.Kernel.Points
import proofs.«175442_j8031588843578_1_alg».proof.Proof.Gen.Kernel.Frame
import proofs.«175442_j8031588843578_1_alg».proof.Proof.Gen.KernelIdeal
import proofs.«175442_j8031588843578_1_alg».proof.Proof.Gen.KernelIdeal.Skeleton
import proofs.«175442_j8031588843578_1_alg».proof.Proof.Gen.KernelIdeal.Launch
import proofs.«175442_j8031588843578_1_alg».proof.Proof.Gen.KernelIdeal.Points
import proofs.«175442_j8031588843578_1_alg».proof.Proof.Gen.KernelIdeal.Frame
import proofs.«175442_j8031588843578_1_alg».proof.Proof.Gen.ReferenceIdeal
import proofs.«175442_j8031588843578_1_alg».proof.Proof.Gen.Pre_finite_inputs
import proofs.«175442_j8031588843578_1_alg».proof.Proof.Gen.KernelIdeal.Value
import proofs.«175442_j8031588843578_1_alg».proof.Proof.Gen.ReferenceIdeal.Run
import proofs.«175442_j8031588843578_1_alg».proof.Proof.Gen.ReferenceIdeal.Read
import proofs.«175442_j8031588843578_1_alg».proof.Proof.Tiles
import proofs.«175442_j8031588843578_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the network's value of those arguments
    in their result arrays. -/
theorem algebraic : Cert.algebraic_KernelIdeal_ReferenceIdeal := by
  intro m ρ m' ρ' _ hagree
  refine ⟨fun c => Cert.KernelIdeal.Tiles.value m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq]
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
